-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x200x512 : Shape := ⟨3, ![8, 200, 512]⟩
abbrev S8x50x512 : Shape := ⟨3, ![8, 50, 512]⟩
abbrev S1024x512 : Shape := ⟨2, ![1024, 512]⟩
abbrev S1024 : Shape := ⟨1, ![1024]⟩
abbrev S1024x1024 : Shape := ⟨2, ![1024, 1024]⟩
abbrev S_ : Shape := ⟨0, ![]⟩

class Facts : Prop where
  bcast_S_S8x200x512 : S_.BroadcastsInDim S8x200x512 (![] : Fin 0 → Fin S8x200x512.rank)
  reducesTo_S8x200x512_S_d0_1_2 : S8x200x512.ReducesTo [0, 1, 2] S_
  h_S_ : 0 < S_.numel
  bcast_S_S8x50x512 : S_.BroadcastsInDim S8x50x512 (![] : Fin 0 → Fin S8x50x512.rank)
  reducesTo_S8x50x512_S_d0_1_2 : S8x50x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x512 .f32) (main_arg5 : FVec F S1024 .f32) (main_arg6 : FVec F S1024x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S8x200x512 .f32) (main_arg1 : FVec F S8x50x512 .f32) (main_arg2 : FVec F S1024x512 .f32) (main_arg3 : FVec F S1024 .f32) (main_arg4 : FVec F S1024x512 .f32) (main_arg5 : FVec F S1024 .f32) (main_arg6 : FVec F S1024x1024 .f32) (main_arg7 : FVec F S1024 .f32) : IVec S_ 1 :=
  let main_v0 : FVec F S8x200x512 .f32 := Host.absf main_arg0
  let main_cst : FVec F S_ .f32 := constant S_ .f32 0x7F800000#32
  let main_v1 : FVec F S8x200x512 .f32 := broadcastInDim S8x200x512 ![] bcast_S_S8x200x512 main_cst
  let main_v2 : IVec S8x200x512 1 := cmpf .olt main_v0 main_v1
  let main_c : IVec S_ 1 := constantI S_ 1 1#1
  let main_v3 : IVec S_ 1 := (fun x v => Host.reduce IntOp.andi x v reducesTo_S8x200x512_S_d0_1_2 h_S_) main_v2 main_c
  let main_v4 : FVec F S8x50x512 .f32 := Host.absf main_arg1
  let main_cst_0 : FVec F S_ .f32 := constant S_ .f32 0x7F800000#32
  let main_v5 : FVec F S8x50x512 .f32 := broadcastInDim S8x50x512 ![] bcast_S_S8x50x512 main_cst_0
  let main_v6 : IVec S8x50x512 1 := cmpf .olt main_v4 main_v5
  let main_c_1 : IVec S_ 1 := constantI S_ 1 1#1
  let main_v7 : IVec S_ 1 := (fun x v => Host.reduce IntOp.andi x v reducesTo_S8x50x512_S_d0_1_2 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S8x200x512 : Shape := ⟨3, ![8, 200, 512]⟩
abbrev S8x50x512 : Shape := ⟨3, ![8, 50, 512]⟩
abbrev S1024x512 : Shape := ⟨2, ![1024, 512]⟩
abbrev S1024 : Shape := ⟨1, ![1024]⟩
abbrev S1024x1024 : Shape := ⟨2, ![1024, 1024]⟩
abbrev S_ : Shape := ⟨0, ![]⟩
abbrev S8x56x512 : Shape := ⟨3, ![8, 56, 512]⟩
abbrev S512x1024 : Shape := ⟨2, ![512, 1024]⟩
abbrev S1x1024 : Shape := ⟨2, ![1, 1024]⟩
abbrev S8x200x56x1024 : Shape := ⟨4, ![8, 200, 56, 1024]⟩
abbrev S1x40x512 : Shape := ⟨3, ![1, 40, 512]⟩
abbrev S1x56x512 : Shape := ⟨3, ![1, 56, 512]⟩
abbrev S1x40x56x1024 : Shape := ⟨4, ![1, 40, 56, 1024]⟩
abbrev S40x512 : Shape := ⟨2, ![40, 512]⟩
abbrev S40x1024 : Shape := ⟨2, ![40, 1024]⟩
abbrev S56x512 : Shape := ⟨2, ![56, 512]⟩
abbrev S56x1024 : Shape := ⟨2, ![56, 1024]⟩
abbrev S40x1x1024 : Shape := ⟨3, ![40, 1, 1024]⟩
abbrev S1x56x1024 : Shape := ⟨3, ![1, 56, 1024]⟩
abbrev S40x56x1024 : Shape := ⟨3, ![40, 56, 1024]⟩
abbrev S2240x1024 : Shape := ⟨2, ![2240, 1024]⟩
abbrev S2240 : Shape := ⟨1, ![2240]⟩
abbrev S2240x1 : Shape := ⟨2, ![2240, 1]⟩
abbrev S8x200x50x1024 : Shape := ⟨4, ![8, 200, 50, 1024]⟩

abbrev nBuf : Space → Nat
  | .hbm => 22
  | .vmem => 12
  | .smem => 0
  | _ => 0

abbrev bufTy : (tb : Table) → Fin (tcTables nBuf tb) → BufTy
  | .hbm, ⟨0, _⟩ => ⟨S8x200x512, .f32⟩
  | .hbm, ⟨1, _⟩ => ⟨S8x50x512, .f32⟩
  | .hbm, ⟨2, _⟩ => ⟨S1024x512, .f32⟩
  | .hbm, ⟨3, _⟩ => ⟨S1024, .f32⟩
  | .hbm, ⟨4, _⟩ => ⟨S1024x512, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S_, .i32⟩
  | .hbm, ⟨9, _⟩ => ⟨S_, .f32⟩
  | .hbm, ⟨10, _⟩ => ⟨S8x56x512, .f32⟩
  | .hbm, ⟨11, _⟩ => ⟨S512x1024, .f32⟩
  | .hbm, ⟨12, _⟩ => ⟨S512x1024, .bf16⟩
  | .hbm, ⟨13, _⟩ => ⟨S512x1024, .f32⟩
  | .hbm, ⟨14, _⟩ => ⟨S512x1024, .bf16⟩
  | .hbm, ⟨15, _⟩ => ⟨S1024x1024, .f32⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S8x200x56x1024, .f32⟩
  | .hbm, ⟨21, _⟩ => ⟨S8x200x50x1024, .f32⟩
  | .local _ .vmem, ⟨0, _⟩ => ⟨S1x40x512, .f32⟩
  | .local _ .vmem, ⟨1, _⟩ => ⟨S1x40x512, .f32⟩
  | .local _ .vmem, ⟨2, _⟩ => ⟨S1x56x512, .f32⟩
  | .local _ .vmem, ⟨3, _⟩ => ⟨S1x56x512, .f32⟩
  | .local _ .vmem, ⟨4, _⟩ => ⟨S512x1024, .bf16⟩
  | .local _ .vmem, ⟨5, _⟩ => ⟨S1x1024, .f32⟩
  | .local _ .vmem, ⟨6, _⟩ => ⟨S512x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1x40x56x1024, .f32⟩
  | .local _ .vmem, ⟨11, _⟩ => ⟨S1x40x56x1024, .f32⟩
  | _, _ => ⟨S8x200x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x40x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x56x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x40x56x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  pads_S8x50x512_S8x56x512_000_060_000 : S8x50x512.Pads (![0, 0, 0] : Fin 3 → Nat) ![0, 6, 0] ![0, 0, 0] S8x56x512
  h_S_ : 0 < S_.numel
  transposes_S1024x512_S512x1024_1_0 : S1024x512.Transposes [1, 0] S512x1024
  bitsLt_bf16_f32 : FTy.bits .bf16 < FTy.bits .f32
  transposes_S1024x1024_S1024x1024_1_0 : S1024x1024.Transposes [1, 0] S1024x1024
  shapeCasts_S1024_S1x1024 : S1024.ShapeCasts S1x1024
  inb_S1x40x512_S1x40x512_0_0_0 : ∀ a, (![0, 0, 0] : Fin 3 → Nat) a + S1x40x512.size a ≤ S1x40x512.size a
  h_S1x40x512 : 0 < S1x40x512.numel
  shapeCasts_S1x40x512_S40x512 : S1x40x512.ShapeCasts S40x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S40x1024 : S1x1024.Broadcasts S40x1024
  inb_S1x56x512_S1x56x512_0_0_0 : ∀ a, (![0, 0, 0] : Fin 3 → Nat) a + S1x56x512.size a ≤ S1x56x512.size a
  h_S1x56x512 : 0 < S1x56x512.numel
  shapeCasts_S1x56x512_S56x512 : S1x56x512.ShapeCasts S56x512
  broadcasts_S1x1024_S56x1024 : S1x1024.Broadcasts S56x1024
  shapeCasts_S40x1024_S40x1x1024 : S40x1024.ShapeCasts S40x1x1024
  shapeCasts_S56x1024_S1x56x1024 : S56x1024.ShapeCasts S1x56x1024
  broadcasts_S40x1x1024_S40x56x1024 : S40x1x1024.Broadcasts S40x56x1024
  broadcasts_S1x56x1024_S40x56x1024 : S1x56x1024.Broadcasts S40x56x1024
  shapeCasts_S40x56x1024_S2240x1024 : S40x56x1024.ShapeCasts S2240x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1024_S2240x1024 : S1x1024.Broadcasts S2240x1024
  reduces_S2240x1024_S2240 : S2240x1024.Reduces [1] S2240
  shapeCasts_S2240_S2240x1 : S2240.ShapeCasts S2240x1
  broadcasts_S2240x1_S2240x1024 : S2240x1.Broadcasts S2240x1024
  shapeCasts_S2240x1024_S40x56x1024 : S2240x1024.ShapeCasts S40x56x1024
  inb_S1x40x56x1024_S1x40x56x1024_0_0_0_0 : ∀ a, (![0, 0, 0, 0] : Fin 4 → Nat) a + S1x40x56x1024.size a ≤ S1x40x56x1024.size a
  h_S1x40x56x1024 : 0 < S1x40x56x1024.numel
  shapeCasts_S1x40x56x1024_S40x56x1024 : S1x40x56x1024.ShapeCasts S40x56x1024
  shapeCasts_S40x56x1024_S1x40x56x1024 : S40x56x1024.ShapeCasts S1x40x56x1024
  slices_S8x200x56x1024_S8x200x50x1024_0_0_0_0 : S8x200x56x1024.Slices ![0, 0, 0, 0] S8x200x50x1024
  dot_S40x512_S512x1024_S40x1024_1_0_0_1_n_n_wf : DotDims.WF S40x512 S512x1024 S40x1024 [1] [0] [0] [1] [] []
  dot_S56x512_S512x1024_S56x1024_1_0_0_1_n_n_wf : DotDims.WF S56x512 S512x1024 S56x1024 [1] [0] [0] [1] [] []
  dot_S2240x1024_S1024x1024_S2240x1024_1_0_0_1_n_n_wf : DotDims.WF S2240x1024 S1024x1024 S2240x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x40x512.size a ≤ S8x200x512.size a
  hwx0_0 : ∀ i : grid0.Coords, EltTy.bits .f32 = 32 ∨ (Rect.block (s := S8x200x512) S1x40x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x56x512.size a ≤ S8x56x512.size a
  hwx0_1 : ∀ i : grid0.Coords, EltTy.bits .f32 = 32 ∨ (Rect.block (s := S8x56x512) S1x56x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x1024.size a
  hwx0_4 : ∀ i : grid0.Coords, EltTy.bits .bf16 = 32 ∨ (Rect.block (s := S512x1024) S512x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x40x56x1024.size a ≤ S8x200x56x1024.size a
  hwx0_8 : ∀ i : grid0.Coords, EltTy.bits .f32 = 32 ∨ (Rect.block (s := S8x200x56x1024) S1x40x56x1024.size (cc0_transform_8 i) (hinb0_8 i)).WholeWords (EltTy.packing .f32)

variable [Facts₀]

def dot_S40x512_S512x1024_S40x1024_1_0_0_1_n_n : DotDims S40x512 S512x1024 S40x1024 where
  lhsContracting := [1]
  rhsContracting := [0]
  lhsNonContracting := [0]
  rhsNonContracting := [1]
  lhsBatch := []
  rhsBatch := []
  wf := dot_S40x512_S512x1024_S40x1024_1_0_0_1_n_n_wf
def dot_S56x512_S512x1024_S56x1024_1_0_0_1_n_n : DotDims S56x512 S512x1024 S56x1024 where
  lhsContracting := [1]
  rhsContracting := [0]
  lhsNonContracting := [0]
  rhsNonContracting := [1]
  lhsBatch := []
  rhsBatch := []
  wf := dot_S56x512_S512x1024_S56x1024_1_0_0_1_n_n_wf
def dot_S2240x1024_S1024x1024_S2240x1024_1_0_0_1_n_n : DotDims S2240x1024 S1024x1024 S2240x1024 where
  lhsContracting := [1]
  rhsContracting := [0]
  lhsNonContracting := [0]
  rhsNonContracting := [1]
  lhsBatch := []
  rhsBatch := []
  wf := dot_S2240x1024_S1024x1024_S2240x1024_1_0_0_1_n_n_wf

abbrev win0_0 : Pipeline.Window sig grid0 :=
  Pipeline.Window.ofSpec (Memref.whole main_arg0) S1x40x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x56x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x40x56x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x200x512 : Shape := ⟨3, ![8, 200, 512]⟩
abbrev S8x50x512 : Shape := ⟨3, ![8, 50, 512]⟩
abbrev S1024x512 : Shape := ⟨2, ![1024, 512]⟩
abbrev S1024 : Shape := ⟨1, ![1024]⟩
abbrev S1024x1024 : Shape := ⟨2, ![1024, 1024]⟩
abbrev S8x200x1024 : Shape := ⟨3, ![8, 200, 1024]⟩
abbrev S1x1x1024 : Shape := ⟨3, ![1, 1, 1024]⟩
abbrev S8x50x1024 : Shape := ⟨3, ![8, 50, 1024]⟩
abbrev S8x200x1x1024 : Shape := ⟨4, ![8, 200, 1, 1024]⟩
abbrev S8x1x50x1024 : Shape := ⟨4, ![8, 1, 50, 1024]⟩
abbrev S8x200x50x1024 : Shape := ⟨4, ![8, 200, 50, 1024]⟩
abbrev S1x1x1x1024 : Shape := ⟨4, ![1, 1, 1, 1024]⟩
abbrev S_ : Shape := ⟨0, ![]⟩
abbrev S8x200x50 : Shape := ⟨3, ![8, 200, 50]⟩
abbrev S8x200x50x1 : Shape := ⟨4, ![8, 200, 50, 1]⟩

abbrev nBuf : Space → Nat
  | .hbm => 41
  | .vmem => 0
  | .smem => 0
  | _ => 0

abbrev bufTy : (tb : Table) → Fin (tcTables nBuf tb) → BufTy
  | .hbm, ⟨0, _⟩ => ⟨S8x200x512, .f32⟩
  | .hbm, ⟨1, _⟩ => ⟨S8x50x512, .f32⟩
  | .hbm, ⟨2, _⟩ => ⟨S1024x512, .f32⟩
  | .hbm, ⟨3, _⟩ => ⟨S1024, .f32⟩
  | .hbm, ⟨4, _⟩ => ⟨S1024x512, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S8x200x1024, .f32⟩
  | .hbm, ⟨9, _⟩ => ⟨S1x1x1024, .f32⟩
  | .hbm, ⟨10, _⟩ => ⟨S8x200x1024, .f32⟩
  | .hbm, ⟨11, _⟩ => ⟨S8x200x1024, .f32⟩
  | .hbm, ⟨12, _⟩ => ⟨S8x50x1024, .f32⟩
  | .hbm, ⟨13, _⟩ => ⟨S1x1x1024, .f32⟩
  | .hbm, ⟨14, _⟩ => ⟨S8x50x1024, .f32⟩
  | .hbm, ⟨15, _⟩ => ⟨S8x50x1024, .f32⟩
  | .hbm, ⟨16, _⟩ => ⟨S8x200x1x1024, .f32⟩
  | .hbm, ⟨17, _⟩ => ⟨S8x1x50x1024, .f32⟩
  | .hbm, ⟨18, _⟩ => ⟨S8x200x50x1024, .f32⟩
  | .hbm, ⟨19, _⟩ => ⟨S8x200x50x1024, .f32⟩
  | .hbm, ⟨20, _⟩ => ⟨S8x200x50x1024, .f32⟩
  | .hbm, ⟨21, _⟩ => ⟨S8x200x50x1024, .f32⟩
  | .hbm, ⟨22, _⟩ => ⟨S8x200x50x1024, .f32⟩
  | .hbm, ⟨23, _⟩ => ⟨S1x1x1x1024, .f32⟩
  | .hbm, ⟨24, _⟩ => ⟨S8x200x50x1024, .f32⟩
  | .hbm, ⟨25, _⟩ => ⟨S8x200x50x1024, .f32⟩
  | .hbm, ⟨26, _⟩ => ⟨S_, .f32⟩
  | .hbm, ⟨27, _⟩ => ⟨S8x200x50, .f32⟩
  | .hbm, ⟨28, _⟩ => ⟨S_, .f32⟩
  | .hbm, ⟨29, _⟩ => ⟨S8x200x50, .f32⟩
  | .hbm, ⟨30, _⟩ => ⟨S8x200x50, .f32⟩
  | .hbm, ⟨31, _⟩ => ⟨S8x200x50x1, .f32⟩
  | .hbm, ⟨32, _⟩ => ⟨S8x200x50x1024, .f32⟩
  | .hbm, ⟨33, _⟩ => ⟨S8x200x50x1024, .f32⟩
  | .hbm, ⟨34, _⟩ => ⟨S8x200x50x1024, .f32⟩
  | .hbm, ⟨35, _⟩ => ⟨S_, .f32⟩
  | .hbm, ⟨36, _⟩ => ⟨S8x200x50, .f32⟩
  | .hbm, ⟨37, _⟩ => ⟨S8x200x50x1, .f32⟩
  | .hbm, ⟨38, _⟩ => ⟨S8x200x50x1, .f32⟩
  | .hbm, ⟨39, _⟩ => ⟨S8x200x50x1024, .f32⟩
  | .hbm, ⟨40, _⟩ => ⟨S8x200x50x1024, .f32⟩
  | _, _ => ⟨S8x200x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_call0_cst_0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_cst_1 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_v18 : Ref sig .tc := ⟨.hbm, 40, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x200x1024_0_1_2 : S1x1x1024.BroadcastsInDim S8x200x1024 (![0, 1, 2] : Fin 3 → Fin S8x200x1024.rank)
  bcast_S1x1x1024_S8x50x1024_0_1_2 : S1x1x1024.BroadcastsInDim S8x50x1024 (![0, 1, 2] : Fin 3 → Fin S8x50x1024.rank)
  bcast_S8x200x1024_S8x200x1x1024_0_1_3 : S8x200x1024.BroadcastsInDim S8x200x1x1024 (![0, 1, 3] : Fin 3 → Fin S8x200x1x1024.rank)
  bcast_S8x50x1024_S8x1x50x1024_0_2_3 : S8x50x1024.BroadcastsInDim S8x1x50x1024 (![0, 2, 3] : Fin 3 → Fin S8x1x50x1024.rank)
  bcast_S8x200x1x1024_S8x200x50x1024_0_1_2_3 : S8x200x1x1024.BroadcastsInDim S8x200x50x1024 (![0, 1, 2, 3] : Fin 4 → Fin S8x200x50x1024.rank)
  bcast_S8x1x50x1024_S8x200x50x1024_0_1_2_3 : S8x1x50x1024.BroadcastsInDim S8x200x50x1024 (![0, 1, 2, 3] : Fin 4 → Fin S8x200x50x1024.rank)
  bcast_S1024_S1x1x1x1024_3 : S1024.BroadcastsInDim S1x1x1x1024 (![3] : Fin 1 → Fin S1x1x1x1024.rank)
  bcast_S1x1x1x1024_S8x200x50x1024_0_1_2_3 : S1x1x1x1024.BroadcastsInDim S8x200x50x1024 (![0, 1, 2, 3] : Fin 4 → Fin S8x200x50x1024.rank)
  reducesTo_S8x200x50x1024_S8x200x50_d3 : S8x200x50x1024.ReducesTo [3] S8x200x50
  h_S_ : 0 < S_.numel
  bcast_S_S8x200x50 : S_.BroadcastsInDim S8x200x50 (![] : Fin 0 → Fin S8x200x50.rank)
  bcast_S8x200x50_S8x200x50x1_0_1_2 : S8x200x50.BroadcastsInDim S8x200x50x1 (![0, 1, 2] : Fin 3 → Fin S8x200x50x1.rank)
  bcast_S8x200x50x1_S8x200x50x1024_0_1_2_3 : S8x200x50x1.BroadcastsInDim S8x200x50x1024 (![0, 1, 2, 3] : Fin 4 → Fin S8x200x50x1024.rank)
  dot_S8x200x512_S1024x512_S8x200x1024_2_1_01_0_n_n_wf : DotDims.WF S8x200x512 S1024x512 S8x200x1024 [2] [1] [0, 1] [0] [] []
  dot_S8x50x512_S1024x512_S8x50x1024_2_1_01_0_n_n_wf : DotDims.WF S8x50x512 S1024x512 S8x50x1024 [2] [1] [0, 1] [0] [] []
  dot_S8x200x50x1024_S1024x1024_S8x200x50x1024_3_1_012_0_n_n_wf : DotDims.WF S8x200x50x1024 S1024x1024 S8x200x50x1024 [3] [1] [0, 1, 2] [0] [] []

variable [Facts₀]

def dot_S8x200x512_S1024x512_S8x200x1024_2_1_01_0_n_n : DotDims S8x200x512 S1024x512 S8x200x1024 where
  lhsContracting := [2]
  rhsContracting := [1]
  lhsNonContracting := [0, 1]
  rhsNonContracting := [0]
  lhsBatch := []
  rhsBatch := []
  wf := dot_S8x200x512_S1024x512_S8x200x1024_2_1_01_0_n_n_wf
def dot_S8x50x512_S1024x512_S8x50x1024_2_1_01_0_n_n : DotDims S8x50x512 S1024x512 S8x50x1024 where
  lhsContracting := [2]
  rhsContracting := [1]
  lhsNonContracting := [0, 1]
  rhsNonContracting := [0]
  lhsBatch := []
  rhsBatch := []
  wf := dot_S8x50x512_S1024x512_S8x50x1024_2_1_01_0_n_n_wf
def dot_S8x200x50x1024_S1024x1024_S8x200x50x1024_3_1_012_0_n_n : DotDims S8x200x50x1024 S1024x1024 S8x200x50x1024 where
  lhsContracting := [3]
  rhsContracting := [1]
  lhsNonContracting := [0, 1, 2]
  rhsNonContracting := [0]
  lhsBatch := []
  rhsBatch := []
  wf := dot_S8x200x50x1024_S1024x1024_S8x200x50x1024_3_1_012_0_n_n_wf

class Facts : Prop extends Facts₀ where

variable [Facts]
-- ==== Proof.JoinSpec.lean ====
/-
  The joint network's result as one function of its eight argument arrays, index by index, on the
  extended reals. For a batch entry b, an encoder step t, a decoder step u and a vocabulary entry v:

    enc b t j   = (∑ d, X[b,t,d] · We[j,d]) + be[j]
    dec b u j   = (∑ d, Y[b,u,d] · Wd[j,d]) + bd[j]
    logit b t u v = (∑ j, tanh (enc b t j + dec b u j) · Wf[v,j]) + bf[v]
    out b t u v = (logit v − M) − log (∑ v', exp (logit v' − M)),   M = the maximum of the row of logits from −∞.

  Both programs compute exactly this expression, with the same grouping of every sum and difference, so
  no law of the extended reals beyond "the maximum with −∞ is the identity" is needed to join them.
-/
import Idealize.ShloMosaic.PureOps.Ideal
import Idealize.ShloMosaic.PureOps.Ideal.Laws
import Idealize.ShloMosaic.Lib.ValueIdx

noncomputable section

namespace Cert.JoinSpec

open Idealize.ShloMosaic Idealize.ShloMosaic.ValueIdx

/-- The f32 word of −∞, from which both programs start a row's maximum. -/
abbrev negInf : EReal := Ideal.ofBits .f32 0xFF800000#32

/-- That word denotes the bottom of the extended reals. -/
theorem negInf_eq_bot : negInf = ⊥ := by simp [negInf, Ideal.ofBits, Ideal.ieee]

/-- So the maximum with it is the identity. -/
theorem max_negInf (y : EReal) : max negInf y = y := by
  rw [negInf_eq_bot]; exact max_eq_right bot_le

/-- A row's maximum: the fold of `max` from −∞ over the 1024 vocabulary entries. -/
def rowMax (f : Fin 1024 → EReal) : EReal := (Finset.univ : Finset (Fin 1024)).fold max negInf f

/-- The log-softmax of a row of 1024 logits, at entry `v`. -/
def logSoftmax (f : Fin 1024 → EReal) (v : Fin 1024) : EReal :=
  (f v - rowMax f) - Ideal.log (∑ k : Fin 1024, Ideal.exp (f k - rowMax f))

/-- One entry of a projection: a 512-term inner product plus its bias. -/
def affine (x w : Fin 512 → EReal) (b : EReal) : EReal := (∑ d : Fin 512, x d * w d) + b

/-- One logit: the tanh of the joined projections against one row of the output weights, plus its bias. -/
def logit (e d w : Fin 1024 → EReal) (b : EReal) : EReal :=
  (∑ j : Fin 1024, Ideal.tanh (e j + d j) * w j) + b

/-- The result at (b, t, u, v) from the rows it depends on: row (b, t) of the encoder output, row (b, u) of the
    decoder output, the projection weights by output row, and the output weights by vocabulary row. -/
def cell (x y : Fin 512 → EReal) (we wd : Fin 1024 → Fin 512 → EReal) (be bd : Fin 1024 → EReal)
    (wf : Fin 1024 → Fin 1024 → EReal) (bf : Fin 1024 → EReal) (v : Fin 1024) : EReal :=
  logSoftmax (fun v' => logit (fun j => affine x (we j) (be j)) (fun j => affine y (wd j) (bd j)) (wf v') (bf v')) v

/-- The whole result over the argument arrays as the reference takes them. -/
def joint (X : (⟨3, ![8, 200, 512]⟩ : Shape).Idx → EReal) (Y : (⟨3, ![8, 50, 512]⟩ : Shape).Idx → EReal)
    (We : (⟨2, ![1024, 512]⟩ : Shape).Idx → EReal) (be : (⟨1, ![1024]⟩ : Shape).Idx → EReal)
    (Wd : (⟨2, ![1024, 512]⟩ : Shape).Idx → EReal) (bd : (⟨1, ![1024]⟩ : Shape).Idx → EReal)
    (Wf : (⟨2, ![1024, 1024]⟩ : Shape).Idx → EReal) (bf : (⟨1, ![1024]⟩ : Shape).Idx → EReal) :
    (⟨4, ![8, 200, 50, 1024]⟩ : Shape).Idx → EReal := fun i =>
  cell (fun d => X (ix3 (i 0) (i 1) d)) (fun d => Y (ix3 (i 0) (i 2) d))
    (fun j d => We (ix2 j d)) (fun j d => Wd (ix2 j d)) (fun j => be (ix1 j)) (fun j => bd (ix1 j))
    (fun v j => Wf (ix2 v j)) (fun v => bf (ix1 v)) (i 3)

end Cert.JoinSpec

end
-- ==== Proof.LibMatmul.lean ====
/-
  A plain matrix product read at an index, over the extended reals.

  The dimension numbers "contract the left operand's second axis with the right operand's first, no batch axes"
  (`DotDims.plain M K N`) make entry `(p, q)` of the product the sum over `k` of `l (p, k) * r (k, q)`: the
  contraction index has one coordinate, which is `k`; the left operand is read at row `p` of the result's index
  and column `k`, the right operand at row `k` and the result's column `q`. Stated once for every size, for the
  kernel's product into a zero accumulator and for the host's product alike, so that a block of rows of a product
  and the whole product are compared as sums over the same `Fin K`.
-/
import Idealize.ShloMosaic.PureOps.Ideal
import Idealize.ShloMosaic.PureOps.Ideal.Laws
import Idealize.ShloMosaic.Lib.ValueIdx

noncomputable section

namespace LibMatmul

open Idealize.ShloMosaic Idealize.ShloMosaic.ValueIdx

variable {M K N : Nat}

/-- The left operand's row is the result's row. -/
theorem plain_lhs_0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction position. -/
theorem plain_lhs_1 (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row is the contraction position. -/
theorem plain_rhs_0 (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column is the result's column. -/
theorem plain_rhs_1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction shape is the sum over `k : Fin K` of the two operands at `(p, k)` and `(k, q)`. -/
theorem plain_sum (l : (⟨2, ![M, K]⟩ : Shape).Idx → EReal) (r : (⟨2, ![K, N]⟩ : Shape).Idx → EReal) (p : Fin M) (q : Fin N) :
    ∑ c : (DotDims.plain M K N).contr.Idx, l ((DotDims.plain M K N).lhsIdx (ix2 p q) c) * r ((DotDims.plain M K N).rhsIdx (ix2 p q) c)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_0 _ _).trans hk
      | ⟨1, _⟩ => exact plain_rhs_1 _ _)
  rw [el, er]

/-- The kernel's product into the zero accumulator, at entry `(p, q)`. -/
theorem matmul_zero_plain_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply]
  exact plain_sum l r p q

/-- The host's product, at entry `(p, q)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply]
  exact plain_sum l r p q

end LibMatmul

end
-- ==== Proof.LibRowNorm.lean ====
/-
  Row sums of a matrix, laid out as a column or as a row and spread over a larger matrix, read at an index.

  For a matrix `x` with `a` rows of length `d`, the lane sum over axis 1 gives one number per row. Kept as a
  column `[a, 1]` and broadcast to `[a, b]` it puts row `p`'s sum at every `(p, q)`; transposed to a row `[1, a]`
  and broadcast to `[c, a]` it puts row `q`'s sum at every `(p, q)`. These are the two halves of the outer sum
  `u_p + v_q` that a pairwise-distance kernel forms from squared norms.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowNorm

open Idealize.ShloMosaic Idealize.ShloMosaic.ValueIdx

variable {φ : FTy}

/-- The lane sum over axis 1 of an `[a, d]` matrix, at row `p`: the sum of that row's `d` entries. -/
theorem rowSum_apply {a d : ℕ} (x : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ)
    (p : Fin a) :
    multiReduction .add [1] ⟨1, ![a]⟩ x acc h hφ hacc (ix1 p) = ∑ k : Fin d, x (ix2 p k) := by
  rw [Ideal.multiReduction_add_single]
  refine Finset.sum_congr rfl fun k _ => congrArg x ?_
  funext c
  match c with
  | ⟨0, _⟩ => rfl
  | ⟨1, _⟩ => rfl

/-- A vector of length `a` cast to a column `[a, 1]`, at `(p, 0)`: its entry `p`. -/
theorem column_apply {α : Type} {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  have hz : z.val = 0 := by omega
  show p.val = p.val * 1 + z.val
  omega

/-- A column `[a, 1]` broadcast to `[a, b]`, at `(p, q)`: the column's entry `p`. -/
theorem spreadColumn_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Row sums kept as a column and spread over `[a, b]`: at `(p, q)` the sum of row `p`. -/
theorem rowSum_column_apply {a b d : ℕ} (x : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ (multiReduction .add [1] ⟨1, ![a]⟩ x acc h hφ hacc) hc) hb (ix2 p q)
      = ∑ k : Fin d, x (ix2 p k) := by
  rw [spreadColumn_apply, column_apply, rowSum_apply]

/-- Row sums turned into a row and spread over `[c, a]`: at `(p, q)` the sum of row `q`. -/
theorem rowSum_row_apply {a c d : ℕ} (x : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ)
    (hc : (⟨1, ![a]⟩ : Shape).ShapeCasts ⟨2, ![a, 1]⟩) (ht : (⟨2, ![a, 1]⟩ : Shape).Transposes [1, 0] ⟨2, ![1, a]⟩)
    (hb : (⟨2, ![1, a]⟩ : Shape).Broadcasts ⟨2, ![c, a]⟩) (p : Fin c) (q : Fin a) :
    broadcastTo ⟨2, ![c, a]⟩ (transpose ⟨2, ![1, a]⟩ [1, 0]
        (shapeCast ⟨2, ![a, 1]⟩ (multiReduction .add [1] ⟨1, ![a]⟩ x acc h hφ hacc) hc) ht) hb (ix2 p q)
      = ∑ k : Fin d, x (ix2 q k) := by
  rw [broadcastTo_1b_ab_apply, transpose_ix2_apply, column_apply, rowSum_apply]

end Cert.RowNorm

end
-- ==== Proof.LibJoinLayout.lean ====
/-
  Layout steps of a broadcast join read at an index, and a row maximum as a fold.

  A kernel that joins every row `p` of one matrix with every row `q` of another forms the rank-3 array
  `e[p, ·] + d[q, ·]` by giving each matrix a unit axis and broadcasting it, flattens the two leading axes to feed
  a matrix product (row `p * b + q` of the flat matrix is row `(p, q)` of the array), and unflattens the result.
  Each step reads one entry of its operand; the lemmas say which. The last lemma reads a lane maximum over
  axis 1 of a matrix, at row `p`, as the fold of `max` from the accumulator's value over that row's entries.
-/
import Idealize.ShloMosaic.PureOps.Ideal.Laws
import Idealize.ShloMosaic.Lib.ValueIdx
import Idealize.ShloMosaic.Lib.Pipeline.Value

noncomputable section

namespace Cert.LibJoinLayout

open Idealize.ShloMosaic Idealize.ShloMosaic.ValueIdx

variable {α : Type}

/-- A matrix `[a, c]` given a unit middle axis, at `(p, z, k)`: its entry `(p, k)`. -/
theorem midUnit_apply {a c : ℕ} (x : (⟨2, ![a, c]⟩ : Shape).Idx → α)
    (h : (⟨2, ![a, c]⟩ : Shape).ShapeCasts ⟨3, ![a, 1, c]⟩) (p : Fin a) (z : Fin 1) (k : Fin c) :
    shapeCast ⟨3, ![a, 1, c]⟩ x h (ix3 p z k) = x (ix2 p k) := by
  refine shapeCast_apply x h (ix3 p z k) (ix2 p k) ?_
  rw [Shape.rowMajor_val_two, Shape.rowMajor_val_three]
  have hz : z.val = 0 := by omega
  show p.val * c + k.val = (p.val * 1 + z.val) * c + k.val
  rw [hz, Nat.mul_one, Nat.add_zero]

/-- `[a, 1, c]` broadcast along its unit axis to `[a, b, c]`, at `(p, q, k)`: the operand's `(p, 0, k)`. -/
theorem spreadMid_apply {a b c : ℕ} (x : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ x h (ix3 p q k) = x (ix3 p (0 : Fin 1) k) := by
  refine broadcastTo_apply x h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- `[1, b, c]` broadcast along its unit axis to `[a, b, c]`, at `(p, q, k)`: the operand's `(0, q, k)`. -/
theorem spreadLead_apply {a b c : ℕ} (x : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ x h (ix3 p q k) = x (ix3 (0 : Fin 1) q k) := by
  refine broadcastTo_apply x h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- `[a, b, c]` flattened to `[n, c]`, at row `r = p * b + q`: the array's `(p, q, k)`. -/
theorem flatten_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) :
    shapeCast ⟨2, ![n, c]⟩ x h (ix2 r k) = x (ix3 p q k) := by
  refine shapeCast_apply x h (ix2 r k) (ix3 p q k) ?_
  rw [Shape.rowMajor_val_two, Shape.rowMajor_val_three]
  show (p.val * b + q.val) * c + k.val = r.val * c + k.val
  rw [hr]

/-- `[n, c]` unflattened to `[a, b, c]`, at `(p, q, k)`: the matrix's row `r = p * b + q`, column `k`. -/
theorem unflatten_apply {a b c n : ℕ} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ x h (ix3 p q k) = x (ix2 r k) := by
  refine shapeCast_apply x h (ix3 p q k) (ix2 r k) ?_
  rw [Shape.rowMajor_val_two, Shape.rowMajor_val_three]
  show r.val * c + k.val = (p.val * b + q.val) * c + k.val
  rw [hr]

/-- The lane maximum over axis 1 of an `[a, d]` matrix, at row `p`: the fold of `max` from the accumulator's
    value over that row's `d` entries. -/
theorem rowMax_apply {φ : FTy} {a d : ℕ} (x : FVec Ideal ⟨2, ![a, d]⟩ φ) (acc : BitVec φ.bits)
    (h : (⟨2, ![a, d]⟩ : Shape).Reduces [1] ⟨1, ![a]⟩) (hφ : FKind.Formats φ) (hacc : acc = FKind.maximumf.neutral φ hφ)
    (p : Fin a) :
    multiReduction .maximumf [1] ⟨1, ![a]⟩ x acc h hφ hacc (ix1 p)
      = (Finset.univ : Finset (Fin d)).fold max (Ideal.ofBits φ acc) (fun k => x (ix2 p k)) := by
  rw [Ideal.multiReduction_maximumf_single]
  refine congrArg (fun f => Finset.fold max (Ideal.ofBits φ acc) f (Finset.univ : Finset (Fin d))) ?_
  funext k
  refine congrArg x ?_
  funext c
  match c with
  | ⟨0, _⟩ => rfl
  | ⟨1, _⟩ => rfl

end Cert.LibJoinLayout

end
-- ==== Proof.KernelCell.lean ====
/-
  One entry of the block the kernel body stores, as the joint network's cell of the rows the body loaded.

  The body holds one batch entry's 40 encoder rows and 56 (padded) decoder rows, the three weight matrices already
  transposed, and the three biases as one-row matrices. It projects both sets of rows, joins row `tt` with row `u`
  as row `tt * 56 + u` of a (40 · 56) × 1024 matrix, takes the tanh, multiplies by the output weights, adds the
  bias, and takes the log-softmax of every row. Read at entry `(0, tt, u, v)` of the stored block this is the cell
  of encoder row `tt` and decoder row `u` at vocabulary entry `v`: every matrix product is a plain sum over its
  contraction index at the extended reals, the format changes are the identity, and the layout steps each read one
  entry of their operand.
-/
import proofs.«144257_j66511863545982_1_alg».proof.Proof.Gen.KernelIdeal.Skeleton
import proofs.«144257_j66511863545982_1_alg».proof.Proof.JoinSpec
import proofs.«144257_j66511863545982_1_alg».proof.Proof.LibMatmul
import proofs.«144257_j66511863545982_1_alg».proof.Proof.LibRowNorm
import proofs.«144257_j66511863545982_1_alg».proof.Proof.LibJoinLayout
import Idealize.ShloMosaic.Lib.ValueLayout

noncomputable section

namespace Cert.KernelIdeal.Cell

open Cert.KernelIdeal Cert.KernelIdeal.Gen Idealize.ShloMosaic Idealize.ShloMosaic.ValueIdx
open Cert.JoinSpec Cert.LibJoinLayout

/-- Row `tt * 56 + u` of the flattened (40 · 56)-row matrix: the join of encoder row `tt` with decoder row `u`. -/
def flatRow (tt : Fin 40) (u : Fin 56) : Fin 2240 :=
  ⟨tt.val * 56 + u.val, by have := tt.isLt; have := u.isLt; omega⟩

theorem tanh_apply {s : Shape} (x : FVec Ideal s .f32) (i : s.Idx) : tanh x i = Ideal.tanh (x i) := rfl
theorem exp_apply {s : Shape} (x : FVec Ideal s .f32) (i : s.Idx) : exp x i = Ideal.exp (x i) := rfl
theorem log_apply {s : Shape} (x : FVec Ideal s .f32) (i : s.Idx) : log x i = Ideal.log (x i) := rfl

variable (v0 : FVec Ideal S1x40x512 .f32) (v3 : FVec Ideal S512x1024 .bf16) (v6 : FVec Ideal S1x1024 .f32)
  (v10 : FVec Ideal S1x56x512 .f32) (v13 : FVec Ideal S512x1024 .bf16) (v16 : FVec Ideal S1x1024 .f32)
  (v28 : FVec Ideal S1024x1024 .bf16) (v31 : FVec Ideal S1x1024 .f32)

/-- The encoder projection of the block's row `tt`, output unit `j`. -/
theorem encProj_apply (tt : Fin 40) (j : Fin 1024) :
    addf (matmul dot_S40x512_S512x1024_S40x1024_1_0_0_1_n_n none
        (truncf .bf16 (shapeCast S40x512 v0 shapeCasts_S1x40x512_S40x512) bitsLt_bf16_f32)
        (shapeCast S512x1024 v3 shapeCasts_S512x1024_S512x1024) (constant (F := Ideal) S40x1024 .f32 0x00000000#32))
      (broadcastTo S40x1024 (shapeCast S1x1024 v6 shapeCasts_S1x1024_S1x1024) broadcasts_S1x1024_S40x1024) (ix2 tt j)
    = affine (fun d => v0 (ix3 (0 : Fin 1) tt d)) (fun d => v3 (ix2 d j)) (v6 (ix2 (0 : Fin 1) j)) := by
  have e : dot_S40x512_S512x1024_S40x1024_1_0_0_1_n_n = DotDims.plain 40 512 1024 := rfl
  rw [addf_apply, e]
  simp only [matmul]
  rw [LibMatmul.matmul_zero_plain_apply, broadcastTo_1b_ab_apply]
  unfold affine
  simp only [shapeCast_self]
  congr 1
  refine Finset.sum_congr rfl fun d _ => ?_
  rw [truncf_apply, shapeCast_1ab_ab_apply]

/-- The decoder projection of the block's row `u`, output unit `j`. -/
theorem decProj_apply (u : Fin 56) (j : Fin 1024) :
    addf (matmul dot_S56x512_S512x1024_S56x1024_1_0_0_1_n_n none
        (truncf .bf16 (shapeCast S56x512 v10 shapeCasts_S1x56x512_S56x512) bitsLt_bf16_f32)
        (shapeCast S512x1024 v13 shapeCasts_S512x1024_S512x1024) (constant (F := Ideal) S56x1024 .f32 0x00000000#32))
      (broadcastTo S56x1024 (shapeCast S1x1024 v16 shapeCasts_S1x1024_S1x1024) broadcasts_S1x1024_S56x1024) (ix2 u j)
    = affine (fun d => v10 (ix3 (0 : Fin 1) u d)) (fun d => v13 (ix2 d j)) (v16 (ix2 (0 : Fin 1) j)) := by
  have e : dot_S56x512_S512x1024_S56x1024_1_0_0_1_n_n = DotDims.plain 56 512 1024 := rfl
  rw [addf_apply, e]
  simp only [matmul]
  rw [LibMatmul.matmul_zero_plain_apply, broadcastTo_1b_ab_apply]
  unfold affine
  simp only [shapeCast_self]
  congr 1
  refine Finset.sum_congr rfl fun d _ => ?_
  rw [truncf_apply, shapeCast_1ab_ab_apply]

/-- The logits the body forms, at row `tt * 56 + u` and vocabulary entry `v`. -/
theorem logits_apply (tt : Fin 40) (u : Fin 56) (v : Fin 1024) :
    k0_pay2 (F := Ideal) v0 v3 v6 v10 v13 v16 v28 v31 (ix2 (flatRow tt u) v)
      = logit (fun j => affine (fun d => v0 (ix3 (0 : Fin 1) tt d)) (fun d => v3 (ix2 d j)) (v6 (ix2 (0 : Fin 1) j)))
          (fun j => affine (fun d => v10 (ix3 (0 : Fin 1) u d)) (fun d => v13 (ix2 d j)) (v16 (ix2 (0 : Fin 1) j)))
          (fun j => v28 (ix2 j v)) (v31 (ix2 (0 : Fin 1) v)) := by
  have e : dot_S2240x1024_S1024x1024_S2240x1024_1_0_0_1_n_n = DotDims.plain 2240 1024 1024 := rfl
  unfold k0_pay2
  rw [addf_apply, e]
  simp only [matmul]
  rw [LibMatmul.matmul_zero_plain_apply, broadcastTo_1b_ab_apply]
  unfold logit
  simp only [shapeCast_self]
  congr 1
  refine Finset.sum_congr rfl fun j _ => ?_
  rw [flatten_apply _ _ tt u j (flatRow tt u) rfl, truncf_apply, tanh_apply, addf_apply,
    spreadMid_apply, spreadLead_apply, midUnit_apply, shapeCast_ab_1ab_apply]
  have he := encProj_apply v0 v3 v6 tt j
  have hd := decProj_apply v10 v13 v16 u j
  simp only [matmul, shapeCast_self] at he hd
  rw [he, hd]

/-- The row maxima the body forms: at row `tt * 56 + u`, the maximum from −∞ of that row's logits. -/
theorem rowMax_apply' (tt : Fin 40) (u : Fin 56) :
    k0_pay3 (F := Ideal) v0 v3 v6 v10 v13 v16 v28 v31 (ix1 (flatRow tt u))
      = rowMax (fun v => k0_pay2 (F := Ideal) v0 v3 v6 v10 v13 v16 v28 v31 (ix2 (flatRow tt u) v)) := by
  unfold k0_pay3 rowMax
  exact rowMax_apply _ _ _ _ _ _

/-- The stored block at `(0, tt, u, v)` from any matrix of logits and any vector of row shifts: the shifted logit
    less the log of the row's sum of shifted exponentials. -/
theorem store_apply (lg : FVec Ideal S2240x1024 .f32) (mx : FVec Ideal S2240 .f32) (z : Fin 1) (tt : Fin 40) (u : Fin 56)
    (v : Fin 1024) :
    k0_pay1 (F := Ideal) lg mx (ix4 z tt u v)
      = (lg (ix2 (flatRow tt u) v) - mx (ix1 (flatRow tt u)))
        - Ideal.log (∑ k : Fin 1024, Ideal.exp (lg (ix2 (flatRow tt u) k) - mx (ix1 (flatRow tt u)))) := by
  unfold k0_pay1
  rw [shapeCast_abc_1abc_apply, unflatten_apply _ _ tt u v (flatRow tt u) rfl, subf_apply, subf_apply,
    Cert.RowNorm.spreadColumn_apply, Cert.RowNorm.spreadColumn_apply, log_apply, Cert.RowNorm.column_apply,
    Cert.RowNorm.column_apply]
  refine congrArg (fun s : EReal => _ - Ideal.log s)
    ((Cert.RowNorm.rowSum_apply _ _ _ _ _ _).trans (Finset.sum_congr rfl fun k _ => ?_))
  rw [exp_apply, subf_apply, Cert.RowNorm.spreadColumn_apply, Cert.RowNorm.column_apply]

/-- The stored block at `(0, tt, u, v)` is the cell of the loaded rows. -/
theorem block_apply (z : Fin 1) (tt : Fin 40) (u : Fin 56) (v : Fin 1024) :
    k0_pay1 (F := Ideal) (k0_pay2 (F := Ideal) v0 v3 v6 v10 v13 v16 v28 v31) (k0_pay3 (F := Ideal) v0 v3 v6 v10 v13 v16 v28 v31) (ix4 z tt u v)
      = cell (fun d => v0 (ix3 (0 : Fin 1) tt d)) (fun d => v10 (ix3 (0 : Fin 1) u d))
          (fun j d => v3 (ix2 d j)) (fun j d => v13 (ix2 d j)) (fun j => v6 (ix2 (0 : Fin 1) j))
          (fun j => v16 (ix2 (0 : Fin 1) j)) (fun v' j => v28 (ix2 j v')) (fun v' => v31 (ix2 (0 : Fin 1) v')) v := by
  rw [store_apply, rowMax_apply']
  have hl : (fun v' => k0_pay2 (F := Ideal) v0 v3 v6 v10 v13 v16 v28 v31 (ix2 (flatRow tt u) v'))
      = fun v' => logit (fun j => affine (fun d => v0 (ix3 (0 : Fin 1) tt d)) (fun d => v3 (ix2 d j)) (v6 (ix2 (0 : Fin 1) j)))
          (fun j => affine (fun d => v10 (ix3 (0 : Fin 1) u d)) (fun d => v13 (ix2 d j)) (v16 (ix2 (0 : Fin 1) j)))
          (fun j => v28 (ix2 j v')) (v31 (ix2 (0 : Fin 1) v')) := funext fun v' => logits_apply v0 v3 v6 v10 v13 v16 v28 v31 tt u v'
  simp only [logits_apply]
  rfl

end Cert.KernelIdeal.Cell

end
-- ==== Proof.KernelArray.lean ====
/-
  The kernel's result array after the whole grid, as one function of the arrays the region finds.

  Grid point (b, T) loads batch entry b's encoder rows 40·T … 40·T + 39 and all 56 padded decoder rows, the whole
  weight and bias arrays, and writes back block (b, T) of the padded result: rows 40·T … 40·T + 39 of batch entry b,
  every decoder step and vocabulary entry. Entry (0, tt, u, v) of that block is the joint network's cell of encoder
  row (b, 40·T + tt) and decoder row (b, u). The 8 · 5 blocks tile the padded result, so after the last point the
  array holds that cell at every index.
-/
import proofs.«144257_j66511863545982_1_alg».proof.Proof.Gen.KernelIdeal.Frame
import proofs.«144257_j66511863545982_1_alg».proof.Proof.KernelCell
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.JoinSpec
open Idealize.ShloMosaic.Pipeline (Dat)

variable (m : (ℓ : Loc nD τ sig) → Buf (Elt Ideal) ℓ) (ρ : Dev nD → PrngReg)

/-- The padded result over the eight arrays as the region finds them (weights transposed, biases as one-row
    matrices, 56 decoder rows): at (b, t, u, v) the cell of encoder row (b, t) and decoder row (b, u). -/
def padded (A0 : FVec Ideal S8x200x512 .f32) (A1 : FVec Ideal S8x56x512 .f32) (A2 : FVec Ideal S512x1024 .bf16)
    (A3 : FVec Ideal S1x1024 .f32) (A4 : FVec Ideal S512x1024 .bf16) (A5 : FVec Ideal S1x1024 .f32)
    (A6 : FVec Ideal S1024x1024 .bf16) (A7 : FVec Ideal S1x1024 .f32) : FVec Ideal S8x200x56x1024 .f32 := fun i =>
  cell (fun d => A0 (ix3 (i 0) (i 1) d)) (fun d => A1 (ix3 (i 0) (i 2) d)) (fun j d => A2 (ix2 d j)) (fun j d => A4 (ix2 d j))
    (fun j => A3 (ix2 (0 : Fin 1) j)) (fun j => A5 (ix2 (0 : Fin 1) j)) (fun v j => A6 (ix2 j v))
    (fun v => A7 (ix2 (0 : Fin 1) v)) (i 3)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- The blocks a point loads, each at its literal type. -/
abbrev encBlk (c : Dev nD) (t : Fin cfg0.N) : FVec Ideal S1x40x512 .f32 := iblk m c 0 t
abbrev decBlk (c : Dev nD) (t : Fin cfg0.N) : FVec Ideal S1x56x512 .f32 := iblk m c 1 t
abbrev wencBlk (c : Dev nD) (t : Fin cfg0.N) : FVec Ideal S512x1024 .bf16 := iblk m c 2 t
abbrev bencBlk (c : Dev nD) (t : Fin cfg0.N) : FVec Ideal S1x1024 .f32 := iblk m c 3 t
abbrev wdecBlk (c : Dev nD) (t : Fin cfg0.N) : FVec Ideal S512x1024 .bf16 := iblk m c 4 t
abbrev bdecBlk (c : Dev nD) (t : Fin cfg0.N) : FVec Ideal S1x1024 .f32 := iblk m c 5 t
abbrev wfcBlk (c : Dev nD) (t : Fin cfg0.N) : FVec Ideal S1024x1024 .bf16 := iblk m c 6 t
abbrev bfcBlk (c : Dev nD) (t : Fin cfg0.N) : FVec Ideal S1x1024 .f32 := iblk m c 7 t

/-- The printed index maps, decided over the 40 grid points: the encoder window moves with the output window on the
    batch and step axes, the decoder window on the batch axis only, the weights and biases stay at block 0. -/
theorem idx_facts : ∀ t : Fin cfg0.N,
    win0_0.index t (0 : Fin 3) = win0_8.index t (0 : Fin 4) ∧ win0_0.index t (1 : Fin 3) = win0_8.index t (1 : Fin 4)
    ∧ win0_0.index t (2 : Fin 3) = 0
    ∧ win0_1.index t (0 : Fin 3) = win0_8.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (2 : Fin 4) = 0 ∧ win0_8.index t (3 : Fin 4) = 0 :=
  (by decide +kernel : ∀ t : Fin grid0.N, _)

/-- Every block (b, T) of the padded result is some point's. -/
theorem idx_onto : ∀ (q0 : Fin 8) (q1 : Fin 5), ∃ t : Fin cfg0.N, win0_8.index t = ![q0.val, q1.val, 0, 0] :=
  (by decide +kernel : ∀ (q0 : Fin 8) (q1 : Fin 5), ∃ t : Fin grid0.N, win0_8.index t = ![q0.val, q1.val, 0, 0])

/-- What point `t` writes back is block `t` of the padded result over the arrays the region finds. -/
theorem flushed_eq (c : Dev nD) (t : Fin cfg0.N) :
    (dats m 0 c).flushed 8 t = ((cfg0.win 8).blk t).view.read (Elt Ideal)
      (padded (V m c main_arg0) (V m c main_v0) (V m c main_v2) (V m c main_v7) (V m c main_v4) (V m c main_v8)
        (V m c main_v6) (V m c main_v9)) := by
  show (cfg0.win 8).cut (grid0.coords t) ((dats m 0 c).after 8 t) = _
  rw [after0_8]
  unfold out0_8
  rw [View.canon_unit_zero hz4]
  simp only [View.ld_unit_zero (S := S1x40x512) hz3, View.ld_unit_zero (S := S1x56x512) hz3,
    View.ld_unit_zero (S := S512x1024) hz2, View.ld_unit_zero (S := S1x1024) hz2, View.ld_unit_zero (S := S1024x1024) hz2]
  funext y
  obtain ⟨z, tt, u, v, rfl⟩ : ∃ (z : Fin 1) (tt : Fin 40) (u : Fin 56) (v : Fin 1024), y = ix4 z tt u v :=
    ⟨y 0, y 1, y 2, y 3, eq_ix4 y⟩
  show k0_pay1 (F := Ideal)
      (k0_pay2 (encBlk m c t) (wencBlk m c t) (bencBlk m c t) (decBlk m c t) (wdecBlk m c t) (bdecBlk m c t) (wfcBlk m c t) (bfcBlk m c t))
      (k0_pay3 (encBlk m c t) (wencBlk m c t) (bencBlk m c t) (decBlk m c t) (wdecBlk m c t) (bdecBlk m c t) (wfcBlk m c t) (bfcBlk m c t))
      (ix4 z tt u v)
    = padded (V m c main_arg0) (V m c main_v0) (V m c main_v2) (V m c main_v7) (V m c main_v4) (V m c main_v8)
        (V m c main_v6) (V m c main_v9) (((cfg0.win 8).blk t).view.emb (ix4 z tt u v))
  rw [Cell.block_apply]
  unfold padded
  obtain ⟨e00, e01, e02, e10, e11, e12, e20, e21, e30, e31, e40, e41, e50, e51, e60, e61, e70, e71, e82, e83⟩ := idx_facts t
  have hz : z.val = 0 := by omega
  have hx : (fun d : Fin 512 => encBlk m c t (ix3 (0 : Fin 1) tt d))
      = fun d => V m c main_arg0 (ix3 (((cfg0.win 8).blk t).view.emb (ix4 z tt u v) 0) (((cfg0.win 8).blk t).view.emb (ix4 z tt u v) 1) d) := by
    funext d
    show V m c main_arg0 (((cfg0.win 0).blk t).view.emb (ix3 (0 : Fin 1) tt d)) = _
    refine congrArg (V m c main_arg0) (funext fun a => Fin.ext ?_)
    match a with
    | ⟨0, _⟩ => show win0_0.index t (0 : Fin 3) * 1 + 1 * 0 = win0_8.index t (0 : Fin 4) * 1 + 1 * z.val; omega
    | ⟨1, _⟩ => show win0_0.index t (1 : Fin 3) * 40 + 1 * tt.val = win0_8.index t (1 : Fin 4) * 40 + 1 * tt.val; omega
    | ⟨2, _⟩ => show win0_0.index t (2 : Fin 3) * 512 + 1 * d.val = d.val; omega
  have hy : (fun d : Fin 512 => decBlk m c t (ix3 (0 : Fin 1) u d))
      = fun d => V m c main_v0 (ix3 (((cfg0.win 8).blk t).view.emb (ix4 z tt u v) 0) (((cfg0.win 8).blk t).view.emb (ix4 z tt u v) 2) d) := by
    funext d
    show V m c main_v0 (((cfg0.win 1).blk t).view.emb (ix3 (0 : Fin 1) u d)) = _
    refine congrArg (V m c main_v0) (funext fun a => Fin.ext ?_)
    match a with
    | ⟨0, _⟩ => show win0_1.index t (0 : Fin 3) * 1 + 1 * 0 = win0_8.index t (0 : Fin 4) * 1 + 1 * z.val; omega
    | ⟨1, _⟩ => show win0_1.index t (1 : Fin 3) * 56 + 1 * u.val = win0_8.index t (2 : Fin 4) * 56 + 1 * u.val; omega
    | ⟨2, _⟩ => show win0_1.index t (2 : Fin 3) * 512 + 1 * d.val = d.val; omega
  have hwe : (fun (j : Fin 1024) (d : Fin 512) => wencBlk m c t (ix2 d j)) = fun j d => V m c main_v2 (ix2 d j) := by
    funext j d
    show V m c main_v2 (((cfg0.win 2).blk t).view.emb (ix2 d j)) = _
    refine congrArg (V m c main_v2) (funext fun a => Fin.ext ?_)
    match a with
    | ⟨0, _⟩ => show win0_2.index t (0 : Fin 2) * 512 + 1 * d.val = d.val; omega
    | ⟨1, _⟩ => show win0_2.index t (1 : Fin 2) * 1024 + 1 * j.val = j.val; omega
  have hwd : (fun (j : Fin 1024) (d : Fin 512) => wdecBlk m c t (ix2 d j)) = fun j d => V m c main_v4 (ix2 d j) := by
    funext j d
    show V m c main_v4 (((cfg0.win 4).blk t).view.emb (ix2 d j)) = _
    refine congrArg (V m c main_v4) (funext fun a => Fin.ext ?_)
    match a with
    | ⟨0, _⟩ => show win0_4.index t (0 : Fin 2) * 512 + 1 * d.val = d.val; omega
    | ⟨1, _⟩ => show win0_4.index t (1 : Fin 2) * 1024 + 1 * j.val = j.val; omega
  have hbe : (fun j : Fin 1024 => bencBlk m c t (ix2 (0 : Fin 1) j)) = fun j => V m c main_v7 (ix2 (0 : Fin 1) j) := by
    funext j
    show V m c main_v7 (((cfg0.win 3).blk t).view.emb (ix2 (0 : Fin 1) j)) = _
    refine congrArg (V m c main_v7) (funext fun a => Fin.ext ?_)
    match a with
    | ⟨0, _⟩ => show win0_3.index t (0 : Fin 2) * 1 + 1 * 0 = 0; omega
    | ⟨1, _⟩ => show win0_3.index t (1 : Fin 2) * 1024 + 1 * j.val = j.val; omega
  have hbd : (fun j : Fin 1024 => bdecBlk m c t (ix2 (0 : Fin 1) j)) = fun j => V m c main_v8 (ix2 (0 : Fin 1) j) := by
    funext j
    show V m c main_v8 (((cfg0.win 5).blk t).view.emb (ix2 (0 : Fin 1) j)) = _
    refine congrArg (V m c main_v8) (funext fun a => Fin.ext ?_)
    match a with
    | ⟨0, _⟩ => show win0_5.index t (0 : Fin 2) * 1 + 1 * 0 = 0; omega
    | ⟨1, _⟩ => show win0_5.index t (1 : Fin 2) * 1024 + 1 * j.val = j.val; omega
  have hwf : (fun (v' j : Fin 1024) => wfcBlk m c t (ix2 j v')) = fun v' j => V m c main_v6 (ix2 j v') := by
    funext v' j
    show V m c main_v6 (((cfg0.win 6).blk t).view.emb (ix2 j v')) = _
    refine congrArg (V m c main_v6) (funext fun a => Fin.ext ?_)
    match a with
    | ⟨0, _⟩ => show win0_6.index t (0 : Fin 2) * 1024 + 1 * j.val = j.val; omega
    | ⟨1, _⟩ => show win0_6.index t (1 : Fin 2) * 1024 + 1 * v'.val = v'.val; omega
  have hbf : (fun v' : Fin 1024 => bfcBlk m c t (ix2 (0 : Fin 1) v')) = fun v' => V m c main_v9 (ix2 (0 : Fin 1) v') := by
    funext v'
    show V m c main_v9 (((cfg0.win 7).blk t).view.emb (ix2 (0 : Fin 1) v')) = _
    refine congrArg (V m c main_v9) (funext fun a => Fin.ext ?_)
    match a with
    | ⟨0, _⟩ => show win0_7.index t (0 : Fin 2) * 1 + 1 * 0 = 0; omega
    | ⟨1, _⟩ => show win0_7.index t (1 : Fin 2) * 1024 + 1 * v'.val = v'.val; omega
  have hv : v = ((cfg0.win 8).blk t).view.emb (ix4 z tt u v) 3 :=
    Fin.ext (by show v.val = win0_8.index t (3 : Fin 4) * 1024 + 1 * v.val; omega)
  rw [hx, hy, hwe, hwd, hbe, hbd, hwf, hbf]
  exact congrArg _ hv

/-- An index of the padded result is in point `t`'s block iff each coordinate is in the block's range on its axis. -/
theorem mem_blk (t : Fin cfg0.N) (i : S8x200x56x1024.Idx) :
    i ∈ ((cfg0.win 8).blk t).view.set ↔ ∀ a : Fin 4, win0_8.index t a * S1x40x56x1024.size a ≤ (i a).val
      ∧ (i a).val < win0_8.index t a * S1x40x56x1024.size a + S1x40x56x1024.size a := by
  show i ∈ ((View.whole main_v10).slice (win0_8.rect t)).set ↔ _
  rw [View.set_slice_whole, Rect.mem_set_unit]
  exact Iff.rfl

/-- The blocks tile the padded result: index (b, r, u, v) lies in the block of the point with block index (b, r / 40). -/
theorem cover (i : S8x200x56x1024.Idx) :
    ∃ t : Fin cfg0.N, (cfg0.win 8).flush t = true ∧ i ∈ ((cfg0.win 8).blk t).view.set := by
  have hi0 : (i 0).val < 8 := (i 0).isLt
  have hi1 : (i 1).val < 200 := (i 1).isLt
  have hi2 : (i 2).val < 56 := (i 2).isLt
  have hi3 : (i 3).val < 1024 := (i 3).isLt
  obtain ⟨t, ht⟩ := idx_onto ⟨(i 0).val, hi0⟩ ⟨(i 1).val / 40, by omega⟩
  have q0 : win0_8.index t (0 : Fin 4) = (i 0).val := congrFun ht 0
  have q1 : win0_8.index t (1 : Fin 4) = (i 1).val / 40 := congrFun ht 1
  have q2 : win0_8.index t (2 : Fin 4) = 0 := congrFun ht 2
  have q3 : win0_8.index t (3 : Fin 4) = 0 := congrFun ht 3
  refine ⟨t, flush0_8 t, ?_⟩
  rw [mem_blk]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 40 ≤ (i 1).val ∧ (i 1).val < win0_8.index t (1 : Fin 4) * 40 + 40; omega
  | ⟨2, _⟩ => show win0_8.index t (2 : Fin 4) * 56 ≤ (i 2).val ∧ (i 2).val < win0_8.index t (2 : Fin 4) * 56 + 56; omega
  | ⟨3, _⟩ => show win0_8.index t (3 : Fin 4) * 1024 ≤ (i 3).val ∧ (i 3).val < win0_8.index t (3 : Fin 4) * 1024 + 1024; omega

/-- The padded result array after the run. -/
theorem final (c : Dev nD) :
    (dats m 0 c).arrAt 8 cfg0.N = padded (V m c main_arg0) (V m c main_v0) (V m c main_v2) (V m c main_v7) (V m c main_v4)
      (V m c main_v8) (V m c main_v6) (V m c main_v9) :=
  (dats m 0 c).arrAt_eq_of_cover 8 _ (fun t _ => flushed_eq m c t) cover

end Cert.KernelIdeal.Whole

end
-- ==== Proof.KernelHost.lean ====
/-
  The kernel program's result as the joint network of its argument arrays.

  Around the region the program only re-lays its arguments: the decoder output gets six padding rows, each weight matrix
  is transposed (and changed to a narrower format, the identity at the extended reals), each bias becomes a one-row
  matrix; after the region the six padded decoder steps are sliced off. The padded result at (b, t, u, v) with u < 50
  depends on decoder row (b, u) only, which the padding leaves as it was, so the sliced array is the joint network of
  the arguments themselves.
-/
import proofs.«144257_j66511863545982_1_alg».proof.Proof.KernelArray
import Idealize.ShloMosaic.Lib.ValueLayout
import Idealize.ShloMosaic.Lib.KernelVsHost
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.JoinSpec Idealize.ShloMosaic.StableHlo
open Idealize.ShloMosaic.Pipeline (Dat)

/-- The re-laid arguments, joined, padded and sliced, are the joint network of the arguments: a layout law, with no
    program state in it. -/
theorem slice_padded_eq (X : FVec Ideal S8x200x512 .f32) (Y : FVec Ideal S8x50x512 .f32) (We : FVec Ideal S1024x512 .f32)
    (be : FVec Ideal S1024 .f32) (Wd : FVec Ideal S1024x512 .f32) (bd : FVec Ideal S1024 .f32)
    (Wf : FVec Ideal S1024x1024 .f32) (bf : FVec Ideal S1024 .f32) (pv : FVec Ideal S_ .f32) :
    extractStridedSlice S8x200x50x1024 ![0, 0, 0, 0]
      (padded X (pad S8x56x512 ![0, 0, 0] ![0, 6, 0] ![0, 0, 0] Y pv pads_S8x50x512_S8x56x512_000_060_000 h_S_)
        (truncf .bf16 (transpose S512x1024 [1, 0] We transposes_S1024x512_S512x1024_1_0) bitsLt_bf16_f32)
        (shapeCast S1x1024 be shapeCasts_S1024_S1x1024)
        (truncf .bf16 (transpose S512x1024 [1, 0] Wd transposes_S1024x512_S512x1024_1_0) bitsLt_bf16_f32)
        (shapeCast S1x1024 bd shapeCasts_S1024_S1x1024)
        (truncf .bf16 (transpose S1024x1024 [1, 0] Wf transposes_S1024x1024_S1024x1024_1_0) bitsLt_bf16_f32)
        (shapeCast S1x1024 bf shapeCasts_S1024_S1x1024))
      slices_S8x200x56x1024_S8x200x50x1024_0_0_0_0
    = joint X Y We be Wd bd Wf bf := by
  funext i
  obtain ⟨b, t, u, v, rfl⟩ : ∃ (b : Fin 8) (t : Fin 200) (u : Fin 50) (v : Fin 1024), i = ix4 b t u v :=
    ⟨i 0, i 1, i 2, i 3, eq_ix4 i⟩
  have hu : u.val < 56 := by have := u.isLt; omega
  rw [slice4_axis2_apply 0 _ _ b t u v (⟨u.val, hu⟩ : Fin 56) (by simp)]
  show cell (fun d => X (ix3 b t d))
      (fun d => pad S8x56x512 ![0, 0, 0] ![0, 6, 0] ![0, 0, 0] Y pv pads_S8x50x512_S8x56x512_000_060_000 h_S_ (ix3 b (⟨u.val, hu⟩ : Fin 56) d))
      (fun j d => truncf .bf16 (transpose S512x1024 [1, 0] We transposes_S1024x512_S512x1024_1_0) bitsLt_bf16_f32 (ix2 d j))
      (fun j d => truncf .bf16 (transpose S512x1024 [1, 0] Wd transposes_S1024x512_S512x1024_1_0) bitsLt_bf16_f32 (ix2 d j))
      (fun j => shapeCast S1x1024 be shapeCasts_S1024_S1x1024 (ix2 (0 : Fin 1) j))
      (fun j => shapeCast S1x1024 bd shapeCasts_S1024_S1x1024 (ix2 (0 : Fin 1) j))
      (fun v' j => truncf .bf16 (transpose S1024x1024 [1, 0] Wf transposes_S1024x1024_S1024x1024_1_0) bitsLt_bf16_f32 (ix2 j v'))
      (fun v' => shapeCast S1x1024 bf shapeCasts_S1024_S1x1024 (ix2 (0 : Fin 1) v')) v
    = cell (fun d => X (ix3 b t d)) (fun d => Y (ix3 b u d)) (fun j d => We (ix2 j d)) (fun j d => Wd (ix2 j d))
        (fun j => be (ix1 j)) (fun j => bd (ix1 j)) (fun v' j => Wf (ix2 v' j)) (fun v' => bf (ix1 v')) v
  have hY : (fun d : Fin 512 => pad S8x56x512 ![0, 0, 0] ![0, 6, 0] ![0, 0, 0] Y pv pads_S8x50x512_S8x56x512_000_060_000 h_S_
      (ix3 b (⟨u.val, hu⟩ : Fin 56) d)) = fun d => Y (ix3 b u d) :=
    funext fun d => pad_apply_of_inside _ _ _ Y pv _ _ _ (ix3 b u d) fun a => by
      match a with
      | ⟨0, _⟩ => show b.val = 0 + b.val * (0 + 1); omega
      | ⟨1, _⟩ => show u.val = 0 + u.val * (0 + 1); omega
      | ⟨2, _⟩ => show d.val = 0 + d.val * (0 + 1); omega
  have hWe : (fun (j : Fin 1024) (d : Fin 512) =>
      truncf .bf16 (transpose S512x1024 [1, 0] We transposes_S1024x512_S512x1024_1_0) bitsLt_bf16_f32 (ix2 d j))
      = fun j d => We (ix2 j d) :=
    funext fun j => funext fun d => by rw [truncf_apply, transpose_ix2_apply]
  have hWd : (fun (j : Fin 1024) (d : Fin 512) =>
      truncf .bf16 (transpose S512x1024 [1, 0] Wd transposes_S1024x512_S512x1024_1_0) bitsLt_bf16_f32 (ix2 d j))
      = fun j d => Wd (ix2 j d) :=
    funext fun j => funext fun d => by rw [truncf_apply, transpose_ix2_apply]
  have hWf : (fun (v' j : Fin 1024) =>
      truncf .bf16 (transpose S1024x1024 [1, 0] Wf transposes_S1024x1024_S1024x1024_1_0) bitsLt_bf16_f32 (ix2 j v'))
      = fun v' j => Wf (ix2 v' j) :=
    funext fun v' => funext fun j => by rw [truncf_apply, transpose_ix2_apply]
  have hbe : (fun j : Fin 1024 => shapeCast S1x1024 be shapeCasts_S1024_S1x1024 (ix2 (0 : Fin 1) j)) = fun j => be (ix1 j) :=
    funext fun j => shapeCast_a_1a_apply be _ _ j
  have hbd : (fun j : Fin 1024 => shapeCast S1x1024 bd shapeCasts_S1024_S1x1024 (ix2 (0 : Fin 1) j)) = fun j => bd (ix1 j) :=
    funext fun j => shapeCast_a_1a_apply bd _ _ j
  have hbf : (fun j : Fin 1024 => shapeCast S1x1024 bf shapeCasts_S1024_S1x1024 (ix2 (0 : Fin 1) j)) = fun j => bf (ix1 j) :=
    funext fun j => shapeCast_a_1a_apply bf _ _ j
  rw [hY, hWe, hWd, hWf, hbe, hbd, hbf]

variable (m : (ℓ : Loc nD τ sig) → Buf (Elt Ideal) ℓ) (ρ : Dev nD → PrngReg)

/-- What the region finds in each window's array: the host lines before it applied to the arguments. -/
theorem V_dec (c : Dev nD) : (V m c main_v0 : FVec Ideal S8x56x512 .f32)
    = pad S8x56x512 ![0, 0, 0] ![0, 6, 0] ![0, 0, 0] (m ((c : Thread nD τ).loc main_arg1))
        (sitofp (F := Ideal) .f32 (constantI S_ 32 0#32)) pads_S8x50x512_S8x56x512_000_060_000 h_S_ := by
  dsimp only [V, V0]
  simp only [hostOps0, hostOps0_1, hostOps0_2, List.flatten_cons, List.flatten_nil, List.append_nil, List.cons_append,
    List.nil_append]
  after_results
  rfl

theorem V_wenc (c : Dev nD) : (V m c main_v2 : FVec Ideal S512x1024 .bf16)
    = truncf (F := Ideal) .bf16 (transpose S512x1024 [1, 0] (m ((c : Thread nD τ).loc main_arg2)) transposes_S1024x512_S512x1024_1_0) bitsLt_bf16_f32 := by
  dsimp only [V, V0]
  simp only [hostOps0, hostOps0_1, hostOps0_2, List.flatten_cons, List.flatten_nil, List.append_nil, List.cons_append,
    List.nil_append]
  after_results

theorem V_wdec (c : Dev nD) : (V m c main_v4 : FVec Ideal S512x1024 .bf16)
    = truncf (F := Ideal) .bf16 (transpose S512x1024 [1, 0] (m ((c : Thread nD τ).loc main_arg4)) transposes_S1024x512_S512x1024_1_0) bitsLt_bf16_f32 := by
  dsimp only [V, V0]
  simp only [hostOps0, hostOps0_1, hostOps0_2, List.flatten_cons, List.flatten_nil, List.append_nil, List.cons_append,
    List.nil_append]
  after_results

theorem V_wfc (c : Dev nD) : (V m c main_v6 : FVec Ideal S1024x1024 .bf16)
    = truncf (F := Ideal) .bf16 (transpose S1024x1024 [1, 0] (m ((c : Thread nD τ).loc main_arg6)) transposes_S1024x1024_S1024x1024_1_0) bitsLt_bf16_f32 := by
  dsimp only [V, V0]
  simp only [hostOps0, hostOps0_1, hostOps0_2, List.flatten_cons, List.flatten_nil, List.append_nil, List.cons_append,
    List.nil_append]
  after_results

theorem V_benc (c : Dev nD) : (V m c main_v7 : FVec Ideal S1x1024 .f32)
    = shapeCast S1x1024 (m ((c : Thread nD τ).loc main_arg3)) shapeCasts_S1024_S1x1024 := by
  dsimp only [V, V0]
  simp only [hostOps0, hostOps0_1, hostOps0_2, List.flatten_cons, List.flatten_nil, List.append_nil, List.cons_append,
    List.nil_append]
  after_results
  rfl

theorem V_bdec (c : Dev nD) : (V m c main_v8 : FVec Ideal S1x1024 .f32)
    = shapeCast S1x1024 (m ((c : Thread nD τ).loc main_arg5)) shapeCasts_S1024_S1x1024 := by
  dsimp only [V, V0]
  simp only [hostOps0, hostOps0_1, hostOps0_2, List.flatten_cons, List.flatten_nil, List.append_nil, List.cons_append,
    List.nil_append]
  after_results
  rfl

theorem V_bfc (c : Dev nD) : (V m c main_v9 : FVec Ideal S1x1024 .f32)
    = shapeCast S1x1024 (m ((c : Thread nD τ).loc main_arg7)) shapeCasts_S1024_S1x1024 := by
  dsimp only [V, V0]
  simp only [hostOps0, hostOps0_1, hostOps0_2, List.flatten_cons, List.flatten_nil, List.append_nil, List.cons_append,
    List.nil_append]
  after_results
  rfl

/-- The result buffer after the host line that follows the region: the joint network of the arguments. -/
theorem result_eq (c : Dev nD) :
    Pipeline.afterTail₀ cfgs (dats m) 0 (V0 m) [hostOps1] c main_v11
      = joint (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  unfold Pipeline.afterTail₀
  show StableHlo.after hostOps1 _ (Proc.devRef .tc main_v11) = _
  after_results
  have hA := (Pipeline.withArrays_arr spec0 launch0.win.arr_inj c (V0 m c) (fun w => (dats m 0 c).arrAt w cfg0.N) 8).trans (final m c)
  rw [V_main_arg0, V_dec, V_wenc, V_wdec, V_wfc, V_benc, V_bdec, V_bfc] at hA
  refine Eq.trans ?_ (slice_padded_eq _ _ _ _ _ _ _ _ (sitofp (F := Ideal) .f32 (constantI S_ 32 0#32)))
  exact congrArg (fun A => extractStridedSlice S8x200x50x1024 ![0, 0, 0, 0] A slices_S8x200x56x1024_S8x200x50x1024_0_0_0_0) hA

end Cert.KernelIdeal.Whole

end
-- ==== Proof.KernelRun.lean ====
/-
  The kernel program's run, with its result named: every weakly fair execution terminates with the result buffer at
  the joint network of the arguments and the arguments unchanged. The generated frame run gives each buffer's final
  contents; the result's is the host line after the region applied to the padded array the grid filled.
-/
import proofs.«144257_j66511863545982_1_alg».proof.Proof.KernelHost

noncomputable section

namespace Cert.KernelIdeal.Whole

open Cert.KernelIdeal Cert.KernelIdeal.Gen Idealize.ShloMosaic Idealize.ShloMosaic.TcCoe Idealize.SL.Sem
open Cert.JoinSpec
open Idealize.ShloMosaic.Pipeline (Dat)

variable (m : (ℓ : Loc nD τ sig) → Buf (Elt Ideal) ℓ) (ρ : Dev nD → PrngReg)

theorem run_joint : θ_run defs (onTc (τ := τ) (main (F := Ideal))) ⟨m, fun _ => 0, ρ⟩ (fun r => ∀ c : Dev nD,
      r.2.mem ((c.tc : Thread nD τ).loc main_v11)
        = joint (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v11 (Pipeline.mem_restRefs_of main_v11 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Whole

end
-- ==== Proof.RefJoint.lean ====
/-
  The reference program's result as the joint network of its argument arrays.

  The reference projects the encoder and decoder outputs with two `dot_general`s, adds the biases, joins the two by
  broadcasting, takes the tanh, projects to the vocabulary with a third `dot_general`, adds its bias, and applies jax's
  log-softmax: the row maximum from −∞ (joined once more with −∞, which changes nothing), the shifted logits, the log of
  the row's sum of shifted exponentials. Read stage by stage at entry (b, t, u, v), every broadcast and product reads
  its operands at the coordinates the joint network's cell names.
-/
import proofs.«144257_j66511863545982_1_alg».proof.Proof.RefRead
import proofs.«144257_j66511863545982_1_alg».proof.Proof.JoinSpec
import Idealize.ShloMosaic.PureOps.Reduce

noncomputable section

namespace Cert.ReferenceIdeal.Joint

open Cert.ReferenceIdeal Cert.ReferenceIdeal.Gen Cert.ReferenceIdeal.ReadP Idealize.ShloMosaic Idealize.ShloMosaic.ValueIdx
open Cert.JoinSpec

variable (x0 : FVec Ideal S8x200x512 .f32) (x1 : FVec Ideal S8x50x512 .f32) (x2 : FVec Ideal S1024x512 .f32)
  (x3 : FVec Ideal S1024 .f32) (x4 : FVec Ideal S1024x512 .f32) (x5 : FVec Ideal S1024 .f32)
  (x6 : FVec Ideal S1024x1024 .f32) (x7 : FVec Ideal S1024 .f32)

/-- The logits at (b, t, u, v). -/
theorem logits_apply (b : Fin 8) (t : Fin 200) (u : Fin 50) (v : Fin 1024) :
    val_main_v17 (F := Ideal) x0 x1 x2 x3 x4 x5 x6 x7 (ix4 b t u v)
      = logit (fun j => affine (fun d => x0 (ix3 b t d)) (fun d => x2 (ix2 j d)) (x3 (ix1 j)))
          (fun j => affine (fun d => x1 (ix3 b u d)) (fun d => x4 (ix2 j d)) (x5 (ix1 j)))
          (fun j => x6 (ix2 v j)) (x7 (ix1 v)) := by
  have e1 : ∀ (j : Fin 1024) (d : Fin 512),
      lidx_main_v0 (idx_main_v8 (idx_main_v10 (lidx_main_v14 (ix4 b t u v) j))) d = ix3 b t d := fun j d =>
    funext fun a => Fin.ext (by match a with | ⟨0, _⟩ => rfl | ⟨1, _⟩ => rfl | ⟨2, _⟩ => rfl)
  have e2 : ∀ (j : Fin 1024) (d : Fin 512),
      ridx_main_v0 (idx_main_v8 (idx_main_v10 (lidx_main_v14 (ix4 b t u v) j))) d = ix2 j d := fun j d =>
    funext fun a => Fin.ext (by match a with | ⟨0, _⟩ => rfl | ⟨1, _⟩ => rfl)
  have e3 : ∀ j : Fin 1024,
      idx_main_v1 (idx_main_v2 (idx_main_v8 (idx_main_v10 (lidx_main_v14 (ix4 b t u v) j)))) = ix1 j := fun j =>
    funext fun a => Fin.ext (by match a with | ⟨0, _⟩ => rfl)
  have e4 : ∀ (j : Fin 1024) (d : Fin 512),
      lidx_main_v4 (idx_main_v9 (idx_main_v11 (lidx_main_v14 (ix4 b t u v) j))) d = ix3 b u d := fun j d =>
    funext fun a => Fin.ext (by match a with | ⟨0, _⟩ => rfl | ⟨1, _⟩ => rfl | ⟨2, _⟩ => rfl)
  have e5 : ∀ (j : Fin 1024) (d : Fin 512),
      ridx_main_v4 (idx_main_v9 (idx_main_v11 (lidx_main_v14 (ix4 b t u v) j))) d = ix2 j d := fun j d =>
    funext fun a => Fin.ext (by match a with | ⟨0, _⟩ => rfl | ⟨1, _⟩ => rfl)
  have e6 : ∀ j : Fin 1024,
      idx_main_v5 (idx_main_v6 (idx_main_v9 (idx_main_v11 (lidx_main_v14 (ix4 b t u v) j)))) = ix1 j := fun j =>
    funext fun a => Fin.ext (by match a with | ⟨0, _⟩ => rfl)
  have e7 : ∀ j : Fin 1024, ridx_main_v14 (ix4 b t u v) j = ix2 v j := fun j =>
    funext fun a => Fin.ext (by match a with | ⟨0, _⟩ => rfl | ⟨1, _⟩ => rfl)
  have e8 : idx_main_v15 (idx_main_v16 (ix4 b t u v)) = ix1 v :=
    funext fun a => Fin.ext (by match a with | ⟨0, _⟩ => rfl)
  rw [val_main_v17_apply, val_main_v14_apply, val_main_v16_apply, val_main_v15_apply]
  simp only [val_main_v13_apply, val_main_v12_apply, val_main_v10_apply, val_main_v8_apply, val_main_v3_apply,
    val_main_v0_apply, val_main_v2_apply, val_main_v1_apply, val_main_v11_apply, val_main_v9_apply, val_main_v7_apply,
    val_main_v4_apply, val_main_v6_apply, val_main_v5_apply, e1, e2, e3, e4, e5, e6, e7, e8,
    Ideal.addf_def, Ideal.hostUnary_tanh_def]
  rfl

/-- The reduced index (b, t, u) with vocabulary entry `k` put back is (b, t, u, k). -/
theorem lift_ix4 (h : S8x200x50x1024.Reduces [3] S8x200x50) (b : Fin 8) (t : Fin 200) (u : Fin 50)
    (k : Fin (S8x200x50x1024.size 3)) : h.lift (ix3 b t u) k = ix4 b t u (⟨k.val, k.isLt⟩ : Fin 1024) := by
  funext c; apply Fin.ext
  fin_cases c <;> rfl

/-- The row shift at (b, t, u): the maximum from −∞ of that row's logits. -/
theorem shift_apply (b : Fin 8) (t : Fin 200) (u : Fin 50) :
    val_main_call0_v2 (F := Ideal) x0 x1 x2 x3 x4 x5 x6 x7 (ix3 b t u)
      = rowMax (fun v => val_main_v17 (F := Ideal) x0 x1 x2 x3 x4 x5 x6 x7 (ix4 b t u v)) := by
  rw [val_main_call0_v2_apply, val_main_call0_v1_apply, val_main_call0_cst_0_apply]
  unfold val_main_call0_v0
  rw [Host.reduce_eq_fold_single FloatOps.maximumf _ _ reducesTo_S8x200x50x1024_S8x200x50_d3 (by decide) h_S_]
  show max negInf ((Finset.univ : Finset (Fin 1024)).fold max negInf _) = _
  rw [max_negInf]
  unfold rowMax
  refine congrArg (fun f => Finset.fold max negInf f (Finset.univ : Finset (Fin 1024))) ?_
  funext k
  exact congrArg (val_main_v17 (F := Ideal) x0 x1 x2 x3 x4 x5 x6 x7) (lift_ix4 _ b t u k)

/-- The reference's result is the joint network of its arguments. -/
theorem result_eq : val_main_v18 (F := Ideal) x0 x1 x2 x3 x4 x5 x6 x7 = joint x0 x1 x2 x3 x4 x5 x6 x7 := by
  funext i
  obtain ⟨b, t, u, v, rfl⟩ : ∃ (b : Fin 8) (t : Fin 200) (u : Fin 50) (v : Fin 1024), i = ix4 b t u v :=
    ⟨i 0, i 1, i 2, i 3, eq_ix4 i⟩
  have f1 : idx_main_call0_v3 (idx_main_call0_v4 (ix4 b t u v)) = ix3 b t u :=
    funext fun a => Fin.ext (by match a with | ⟨0, _⟩ => rfl | ⟨1, _⟩ => rfl | ⟨2, _⟩ => rfl)
  have f2 : ∀ k : Fin 1024, idx_main_call0_v7 (idx_main_call0_v8 (idx_main_call0_v10 (ix4 b t u v))) k = ix4 b t u k := fun k =>
    funext fun a => Fin.ext (by match a with | ⟨0, _⟩ => rfl | ⟨1, _⟩ => rfl | ⟨2, _⟩ => rfl | ⟨3, _⟩ => rfl)
  have f3 : ∀ k : Fin 1024, idx_main_call0_v3 (idx_main_call0_v4 (ix4 b t u k)) = ix3 b t u := fun k =>
    funext fun a => Fin.ext (by match a with | ⟨0, _⟩ => rfl | ⟨1, _⟩ => rfl | ⟨2, _⟩ => rfl)
  rw [val_main_v18_apply, val_main_call0_v10_apply, val_main_call0_v9_apply, val_main_call0_v8_apply,
    val_main_call0_v7_apply, val_main_call0_cst_1_apply]
  simp only [val_main_call0_v6_apply, val_main_call0_v5_apply, val_main_call0_v4_apply, val_main_call0_v3_apply, f1, f2, f3,
    shift_apply, logits_apply, Ideal.subf_def, Ideal.hostUnary_exp_def, Ideal.hostUnary_log_def, Ideal.ofBits_def,
    Ideal.ofBits_zero_f32, zero_add]
  rfl

end Cert.ReferenceIdeal.Joint

end
-- ==== Proof.lean ====
/-
  The certificate of the RNN-T joint network kernel against its reference.

  Both idealized programs end with the result buffer at the joint network of the eight argument arrays
  (Proof/JoinSpec.lean): for the kernel, the grid fills a padded array block by block with the network's cells, the
  host lines around the region only re-lay the arguments and slice the padding off (Proof/KernelCell.lean,
  KernelArray.lean, KernelHost.lean, KernelRun.lean); for the reference, its operations read stage by stage are that
  same expression (Proof/RefJoint.lean). Neither side needs the inputs to be finite: the two programs group every sum
  and difference alike. The three frames are the programs' runs with the results dropped; the idealization rewrote
  nothing, so there is nothing to preserve.
-/
import proofs.«144257_j66511863545982_1_alg».proof.Defs
import proofs.«144257_j66511863545982_1_alg».proof.Proof.Gen.Kernel
import proofs.«144257_j66511863545982_1_alg».proof.Proof.Gen.Kernel.Skeleton
import proofs.«144257_j66511863545982_1_alg».proof.Proof.Gen.Kernel.Launch
import proofs.«144257_j66511863545982_1_alg».proof.Proof.Gen.Kernel.Points
import proofs.«144257_j66511863545982_1_alg».proof.Proof.Gen.Kernel.Frame
import proofs.«144257_j66511863545982_1_alg».proof.Proof.Gen.KernelIdeal
import proofs.«144257_j66511863545982_1_alg».proof.Proof.Gen.KernelIdeal.Skeleton
import proofs.«144257_j66511863545982_1_alg».proof.Proof.Gen.KernelIdeal.Launch
import proofs.«144257_j66511863545982_1_alg».proof.Proof.Gen.KernelIdeal.Points
import proofs.«144257_j66511863545982_1_alg».proof.Proof.Gen.KernelIdeal.Frame
import proofs.«144257_j66511863545982_1_alg».proof.Proof.Gen.ReferenceIdeal
import proofs.«144257_j66511863545982_1_alg».proof.Proof.Gen.Pre_finite_inputs
import proofs.«144257_j66511863545982_1_alg».proof.Proof.KernelRun
import proofs.«144257_j66511863545982_1_alg».proof.Proof.RefJoint
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- From memories that agree on the arguments both programs end with the result at the joint network of those
    arguments. -/
theorem algebraic : Cert.algebraic_KernelIdeal_ReferenceIdeal := by
  intro m ρ m' ρ' _ hagree
  refine ⟨_, Cert.KernelIdeal.Whole.run_joint m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v18_eq, Cert.ReferenceIdeal.Joint.result_eq, (hagree c).1, (hagree c).2.1,
    (hagree c).2.2.1, (hagree c).2.2.2.1, (hagree c).2.2.2.2.1, (hagree c).2.2.2.2.2.1, (hagree c).2.2.2.2.2.2.1,
    (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
